-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x2 : Shape := ⟨2, ![262144, 2]⟩
abbrev S262144 : Shape := ⟨1, ![262144]⟩
abbrev S512x2 : Shape := ⟨2, ![512, 2]⟩
abbrev S_ : Shape := ⟨0, ![]⟩

class Facts : Prop where
  bcast_S_S262144x2 : S_.BroadcastsInDim S262144x2 (![] : Fin 0 → Fin S262144x2.rank)
  reducesTo_S262144x2_S_d0_1 : S262144x2.ReducesTo [0, 1] S_
  h_S_ : 0 < S_.numel
  bcast_S_S512x2 : S_.BroadcastsInDim S512x2 (![] : Fin 0 → Fin S512x2.rank)
  reducesTo_S512x2_S_d0_1 : S512x2.ReducesTo [0, 1] S_

variable [Facts]

def fn {F : FTy → Type} [FloatOps F] (main_arg0 : FVec F S262144x2 .f32) (main_arg1 : IVec S262144 32) (main_arg2 : FVec F S512x2 .f32) (main_arg3 : FVec F S512x2 .f32) : IVec S_ 1 :=
  let main_v0 : FVec F S262144x2 .f32 := Host.absf main_arg0
  let main_cst : FVec F S_ .f32 := constant S_ .f32 0x7F800000#32
  let main_v1 : FVec F S262144x2 .f32 := broadcastInDim S262144x2 ![] bcast_S_S262144x2 main_cst
  let main_v2 : IVec S262144x2 1 := cmpf .olt main_v0 main_v1
  let main_c : IVec S_ 1 := constantI S_ 1 1#1
  let main_v3 : IVec S_ 1 := (fun x v => Host.reduce IntOp.andi x v reducesTo_S262144x2_S_d0_1 h_S_) main_v2 main_c
  let main_v4 : FVec F S512x2 .f32 := Host.absf main_arg2
  let main_cst_0 : FVec F S_ .f32 := constant S_ .f32 0x7F800000#32
  let main_v5 : FVec F S512x2 .f32 := broadcastInDim S512x2 ![] bcast_S_S512x2 main_cst_0
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  let main_v9 : FVec F S512x2 .f32 := Host.absf main_arg3
  let main_cst_2 : FVec F S_ .f32 := constant S_ .f32 0x7F800000#32
  let main_v10 : FVec F S512x2 .f32 := broadcastInDim S512x2 ![] bcast_S_S512x2 main_cst_2
  let main_v11 : IVec S512x2 1 := cmpf .olt main_v9 main_v10
  let main_c_3 : IVec S_ 1 := constantI S_ 1 1#1
  let main_v12 : IVec S_ 1 := (fun x v => Host.reduce IntOp.andi x v reducesTo_S512x2_S_d0_1 h_S_) main_v11 main_c_3
  let main_v13 : IVec S_ 1 := andi main_v8 main_v12
  main_v13
-- ==== Kernel.lean ====
abbrev S262144x2 : Shape := ⟨2, ![262144, 2]⟩
abbrev S262144 : Shape := ⟨1, ![262144]⟩
abbrev S512x2 : Shape := ⟨2, ![512, 2]⟩
abbrev S262144x1 : Shape := ⟨2, ![262144, 1]⟩
abbrev S2x512 : Shape := ⟨2, ![2, 512]⟩
abbrev S_ : Shape := ⟨0, ![]⟩
abbrev S256x512 : Shape := ⟨2, ![256, 512]⟩
abbrev S256x2 : Shape := ⟨2, ![256, 2]⟩
abbrev S256x1 : Shape := ⟨2, ![256, 1]⟩
abbrev S2x256 : Shape := ⟨2, ![2, 256]⟩
abbrev S256x256 : Shape := ⟨2, ![256, 256]⟩
abbrev S1x256 : Shape := ⟨2, ![1, 256]⟩

abbrev nBuf : Space → Nat
  | .hbm => 25
  | .vmem => 11
  | .smem => 0
  | _ => 0

abbrev bufTy : (tb : Table) → Fin (tcTables nBuf tb) → BufTy
  | .hbm, ⟨0, _⟩ => ⟨S262144x2, .f32⟩
  | .hbm, ⟨1, _⟩ => ⟨S262144, .i32⟩
  | .hbm, ⟨2, _⟩ => ⟨S512x2, .f32⟩
  | .hbm, ⟨3, _⟩ => ⟨S512x2, .f32⟩
  | .hbm, ⟨4, _⟩ => ⟨S262144x1, .i32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S2x512, .i1⟩
  | .hbm, ⟨13, _⟩ => ⟨S2x512, .f32⟩
  | .hbm, ⟨14, _⟩ => ⟨S2x512, .f32⟩
  | .hbm, ⟨15, _⟩ => ⟨S2x512, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S2x512, .f32⟩
  | .hbm, ⟨20, _⟩ => ⟨S2x512, .f32⟩
  | .hbm, ⟨21, _⟩ => ⟨S_, .f32⟩
  | .hbm, ⟨22, _⟩ => ⟨S2x512, .f32⟩
  | .hbm, ⟨23, _⟩ => ⟨S2x512, .f32⟩
  | .hbm, ⟨24, _⟩ => ⟨S256x512, .f32⟩
  | .local _ .vmem, ⟨0, _⟩ => ⟨S256x2, .f32⟩
  | .local _ .vmem, ⟨1, _⟩ => ⟨S256x2, .f32⟩
  | .local _ .vmem, ⟨2, _⟩ => ⟨S256x1, .i32⟩
  | .local _ .vmem, ⟨3, _⟩ => ⟨S256x1, .i32⟩
  | .local _ .vmem, ⟨4, _⟩ => ⟨S2x256, .f32⟩
  | .local _ .vmem, ⟨5, _⟩ => ⟨S2x256, .f32⟩
  | .local _ .vmem, ⟨6, _⟩ => ⟨S2x256, .f32⟩
  | .local _ .vmem, ⟨7, _⟩ => ⟨S2x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | _, _ => ⟨S262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 1024], ![false, false]⟩

def k0_cond2 (i : grid0.Coords) : BitVec 1 :=
  let arg1 : BitVec 32 := BitVec.ofNat 32 (i 1).val
  let c1023_i32 : BitVec 32 := 1023#32
  let v45 : BitVec 1 := Scalar.cmpi .eq arg1 c1023_i32
  let v46 : BitVec 32 := Scalar.extui v45
  let c0_i32_16 : BitVec 32 := 0#32
  let v47 : BitVec 1 := Scalar.cmpi .ne v46 c0_i32_16
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S262144_S262144x1 : S262144.ShapeCasts S262144x1
  transposes_S512x2_S2x512_1_0 : S512x2.Transposes [1, 0] S2x512
  bcast_S_S2x512 : S_.BroadcastsInDim S2x512 (![] : Fin 0 → Fin S2x512.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x2_S256x2_0_0 : ∀ a, (![0, 0] : Fin 2 → Nat) a + S256x2.size a ≤ S256x2.size a
  h_S256x2 : 0 < S256x2.numel
  inb_S2x256_S1x256_0_0 : ∀ a, (![0, 0] : Fin 2 → Nat) a + S1x256.size a ≤ S2x256.size a
  h_S1x256 : 0 < S1x256.numel
  shapeCasts_S1x256_S1x256 : S1x256.ShapeCasts S1x256
  slices_S256x2_o0_0_S256x1 : S256x2.Slices ![0, 0] S256x1
  broadcasts_S256x1_S256x256 : S256x1.Broadcasts S256x256
  broadcasts_S1x256_S256x256 : S1x256.Broadcasts S256x256
  inb_S2x256_S1x256_1_0 : ∀ a, (![1, 0] : Fin 2 → Nat) a + S1x256.size a ≤ S2x256.size a
  slices_S256x2_o0_1_S256x1 : S256x2.Slices ![0, 1] S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x256_d1_w32 : S256x256.Iotas .tc 32 [1]
  natLt_1_32 : 1 < 32
  bitsLt_bf16_f32 : FTy.bits .bf16 < FTy.bits .f32
  dot_S256x256_S256x256_S256x256_0_0_1_1_n_n_wf : DotDims.WF S256x256 S256x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2.size a ≤ S262144x2.size a
  hwx0_0 : ∀ i : grid0.Coords, EltTy.bits .f32 = 32 ∨ (Rect.block (s := S262144x2) S256x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S262144x1.size a
  hwx0_1 : ∀ i : grid0.Coords, EltTy.bits .i32 = 32 ∨ (Rect.block (s := S262144x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256.size a ≤ S2x512.size a
  hwx0_2 : ∀ i : grid0.Coords, EltTy.bits .f32 = 32 ∨ (Rect.block (s := S2x512) S2x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256.size a ≤ S2x512.size a
  hwx0_3 : ∀ i : grid0.Coords, EltTy.bits .f32 = 32 ∨ (Rect.block (s := S2x512) S2x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x512.size a
  hwx0_4 : ∀ i : grid0.Coords, EltTy.bits .f32 = 32 ∨ (Rect.block (s := S256x512) S256x256.size (cc0_transform_4 i) (hinb0_4 i)).WholeWords (EltTy.packing .f32)

variable [Facts₀]

def dot_S256x256_S256x256_S256x256_0_0_1_1_n_n : DotDims S256x256 S256x256 S256x256 where
  lhsContracting := [0]
  rhsContracting := [0]
  lhsNonContracting := [1]
  rhsNonContracting := [1]
  lhsBatch := []
  rhsBatch := []
  wf := dot_S256x256_S256x256_S256x256_0_0_1_1_n_n_wf

abbrev win0_0 : Pipeline.Window sig grid0 :=
  Pipeline.Window.ofSpec (Memref.whole main_arg0) S256x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S262144x2 : Shape := ⟨2, ![262144, 2]⟩
abbrev S262144 : Shape := ⟨1, ![262144]⟩
abbrev S512x2 : Shape := ⟨2, ![512, 2]⟩
abbrev S_ : Shape := ⟨0, ![]⟩
abbrev S512x1 : Shape := ⟨2, ![512, 1]⟩
abbrev S512 : Shape := ⟨1, ![512]⟩
abbrev S1x512 : Shape := ⟨2, ![1, 512]⟩
abbrev S262144x1 : Shape := ⟨2, ![262144, 1]⟩
abbrev S262144x512 : Shape := ⟨2, ![262144, 512]⟩
abbrev S256x512 : Shape := ⟨2, ![256, 512]⟩

abbrev nBuf : Space → Nat
  | .hbm => 61
  | .vmem => 0
  | .smem => 0
  | _ => 0

abbrev bufTy : (tb : Table) → Fin (tcTables nBuf tb) → BufTy
  | .hbm, ⟨0, _⟩ => ⟨S262144x2, .f32⟩
  | .hbm, ⟨1, _⟩ => ⟨S262144, .i32⟩
  | .hbm, ⟨2, _⟩ => ⟨S512x2, .f32⟩
  | .hbm, ⟨3, _⟩ => ⟨S512x2, .f32⟩
  | .hbm, ⟨4, _⟩ => ⟨S_, .f32⟩
  | .hbm, ⟨5, _⟩ => ⟨S512x2, .f32⟩
  | .hbm, ⟨6, _⟩ => ⟨S512x2, .f32⟩
  | .hbm, ⟨7, _⟩ => ⟨S512x2, .f32⟩
  | .hbm, ⟨8, _⟩ => ⟨S512x2, .f32⟩
  | .hbm, ⟨9, _⟩ => ⟨S512x2, .i1⟩
  | .hbm, ⟨10, _⟩ => ⟨S512x2, .f32⟩
  | .hbm, ⟨11, _⟩ => ⟨S512x2, .f32⟩
  | .hbm, ⟨12, _⟩ => ⟨S512x2, .f32⟩
  | .hbm, ⟨13, _⟩ => ⟨S512x2, .f32⟩
  | .hbm, ⟨14, _⟩ => ⟨S512x2, .f32⟩
  | .hbm, ⟨15, _⟩ => ⟨S512x2, .f32⟩
  | .hbm, ⟨16, _⟩ => ⟨S512x2, .f32⟩
  | .hbm, ⟨17, _⟩ => ⟨S512x2, .f32⟩
  | .hbm, ⟨18, _⟩ => ⟨S_, .f32⟩
  | .hbm, ⟨19, _⟩ => ⟨S512x2, .f32⟩
  | .hbm, ⟨20, _⟩ => ⟨S512x2, .f32⟩
  | .hbm, ⟨21, _⟩ => ⟨S512x1, .f32⟩
  | .hbm, ⟨22, _⟩ => ⟨S512, .f32⟩
  | .hbm, ⟨23, _⟩ => ⟨S1x512, .f32⟩
  | .hbm, ⟨24, _⟩ => ⟨S262144x1, .f32⟩
  | .hbm, ⟨25, _⟩ => ⟨S262144, .f32⟩
  | .hbm, ⟨26, _⟩ => ⟨S262144x1, .f32⟩
  | .hbm, ⟨27, _⟩ => ⟨S512x1, .f32⟩
  | .hbm, ⟨28, _⟩ => ⟨S512, .f32⟩
  | .hbm, ⟨29, _⟩ => ⟨S1x512, .f32⟩
  | .hbm, ⟨30, _⟩ => ⟨S262144x512, .f32⟩
  | .hbm, ⟨31, _⟩ => ⟨S262144x512, .f32⟩
  | .hbm, ⟨32, _⟩ => ⟨S262144x512, .f32⟩
  | .hbm, ⟨33, _⟩ => ⟨S262144x512, .f32⟩
  | .hbm, ⟨34, _⟩ => ⟨S262144x512, .f32⟩
  | .hbm, ⟨35, _⟩ => ⟨S262144x512, .f32⟩
  | .hbm, ⟨36, _⟩ => ⟨S_, .f32⟩
  | .hbm, ⟨37, _⟩ => ⟨S262144x512, .f32⟩
  | .hbm, ⟨38, _⟩ => ⟨S262144x512, .f32⟩
  | .hbm, ⟨39, _⟩ => ⟨S512x1, .f32⟩
  | .hbm, ⟨40, _⟩ => ⟨S512, .f32⟩
  | .hbm, ⟨41, _⟩ => ⟨S1x512, .f32⟩
  | .hbm, ⟨42, _⟩ => ⟨S262144x1, .f32⟩
  | .hbm, ⟨43, _⟩ => ⟨S262144, .f32⟩
  | .hbm, ⟨44, _⟩ => ⟨S262144x1, .f32⟩
  | .hbm, ⟨45, _⟩ => ⟨S512x1, .f32⟩
  | .hbm, ⟨46, _⟩ => ⟨S512, .f32⟩
  | .hbm, ⟨47, _⟩ => ⟨S1x512, .f32⟩
  | .hbm, ⟨48, _⟩ => ⟨S262144x512, .f32⟩
  | .hbm, ⟨49, _⟩ => ⟨S262144x512, .f32⟩
  | .hbm, ⟨50, _⟩ => ⟨S262144x512, .f32⟩
  | .hbm, ⟨51, _⟩ => ⟨S262144x512, .f32⟩
  | .hbm, ⟨52, _⟩ => ⟨S262144x512, .f32⟩
  | .hbm, ⟨53, _⟩ => ⟨S262144x512, .f32⟩
  | .hbm, ⟨54, _⟩ => ⟨S262144x512, .f32⟩
  | .hbm, ⟨55, _⟩ => ⟨S262144x512, .f32⟩
  | .hbm, ⟨56, _⟩ => ⟨S262144x512, .f32⟩
  | .hbm, ⟨57, _⟩ => ⟨S_, .f32⟩
  | .hbm, ⟨58, _⟩ => ⟨S256x512, .f32⟩
  | .hbm, ⟨59, _⟩ => ⟨S262144x1, .i32⟩
  | .hbm, ⟨60, _⟩ => ⟨S256x512, .f32⟩
  | _, _ => ⟨S262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_1 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  bcast_S_S512x2 : S_.BroadcastsInDim S512x2 (![] : Fin 0 → Fin S512x2.rank)
  slices_S512x2_S512x1_0_0 : S512x2.Slices ![0, 0] S512x1
  shapeCasts_S512x1_S512 : S512x1.ShapeCasts S512
  bcast_S512_S1x512_1 : S512.BroadcastsInDim S1x512 (![1] : Fin 1 → Fin S1x512.rank)
  slices_S262144x2_S262144x1_0_0 : S262144x2.Slices ![0, 0] S262144x1
  shapeCasts_S262144x1_S262144 : S262144x1.ShapeCasts S262144
  bcast_S262144_S262144x1_0 : S262144.BroadcastsInDim S262144x1 (![0] : Fin 1 → Fin S262144x1.rank)
  bcast_S262144x1_S262144x512_0_1 : S262144x1.BroadcastsInDim S262144x512 (![0, 1] : Fin 2 → Fin S262144x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  slices_S512x2_S512x1_0_1 : S512x2.Slices ![0, 1] S512x1
  slices_S262144x2_S262144x1_0_1 : S262144x2.Slices ![0, 1] S262144x1
  bcast_S_S256x512 : S_.BroadcastsInDim S256x512 (![] : Fin 0 → Fin S256x512.rank)
  scatter_S256x512_S262144x1_S262144x512_1_0_0_1_wf : ScatterDims.WF S256x512 S262144x1 S262144x512 [1] [0] [0] 1

variable [Facts₀]

def scatter_S256x512_S262144x1_S262144x512_1_0_0_1 : ScatterDims S256x512 S262144x1 S262144x512 where
  updateWindowDims := [1]
  insertedWindowDims := [0]
  scatterDimsToOperandDims := [0]
  indexVectorDim := 1
  wf := scatter_S256x512_S262144x1_S262144x512_1_0_0_1_wf

class Facts : Prop extends Facts₀ where

variable [Facts]
-- ==== Proof.KernelPieces.lean ====
/-
  What one grid point leaves in the accumulator and in the output block, as values of the point's input blocks.

  The body at a point computes one product: the transposed one-hot selector of the point's 256 segment ids against the
  point's 256 x 256 block of responses, into a zero accumulator. Call it the point's contribution. At the first point of
  a column tile the accumulator is zeroed and the contribution added to that zero; at every later point the contribution
  is added to what the point before left; at the last point the sum is also copied into the output block.
  The rows of centres and sharpness the body reads are the two rows of their 2 x 256 blocks.
-/
import proofs.«402350_j20486994002573_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Row 0 of a 2 x 256 block. -/
abbrev row0 : Rect S2x256 := Rect.unit (s := S2x256) ![0, 0] S1x256.size inb_S2x256_S1x256_0_0
/-- Row 1 of a 2 x 256 block. -/
abbrev row1 : Rect S2x256 := Rect.unit (s := S2x256) ![1, 0] S1x256.size inb_S2x256_S1x256_1_0

/-- A point's contribution: the selector-by-response product of its blocks of points (x0), segment ids (x1), centres
    (x2) and sharpness (x3). -/
def contrib (x0 : Vec F S256x2 .f32) (x1 : Vec F S256x1 .i32) (x2 : Vec F S2x256 .f32) (x3 : Vec F S2x256 .f32) : Vec F S256x256 .f32 :=
  k0_pay3 x0 (View.ld x2 row0) (View.ld x3 row0) (View.ld x2 row1) (View.ld x3 row1) x1

/-- A later point leaves, in the accumulator holding xs, xs plus its contribution. -/
theorem acc_later (c : Dev nD) (i : grid0.Coords) (a2 : Memref sig .tc .vmem S256x2 .f32) (h2 : a2.IsWhole)
    (a3 : Memref sig .tc .vmem S256x1 .i32) (h3 : a3.IsWhole) (a4 : Memref sig .tc .vmem S2x256 .f32) (h4 : a4.IsWhole)
    (a5 : Memref sig .tc .vmem S2x256 .f32) (h5 : a5.IsWhole) (a6 : Memref sig .tc .vmem S256x256 .f32) (h6 : a6.IsWhole)
    (a7 : Memref sig .tc .vmem S256x256 .f32) (h7 : a7.IsWhole) (hc0 : ¬cond0_0 i) (hc1 : ¬cond0_1 i)
    (x0 : Vec F S256x2 .f32) (x1 : Vec F S256x1 .i32) (x2 : Vec F S2x256 .f32) (x3 : Vec F S2x256 .f32) (xs : Vec F S256x256 .f32) :
    sout0_B_0 c i a2 h2 a3 h3 a4 h4 a5 h5 a6 h6 a7 h7 hc0 hc1 x0 x1 x2 x3 xs = k0_pay1 (contrib x0 x1 x2 x3) xs := by
  unfold sout0_B_0
  rw [View.read_writes_eq_canon _ _ _ (scover0_B_0 c i a2 h2 a3 h3 a4 h4 a5 h5 a6 h6 a7 h7 hc0 hc1 x0 x1 x2 x3 xs)]
  unfold kernelRun0_B
  dsimp only
  sl_unfold_words
  rw [View.canon_unit_zero hz]
  unfold contrib
  simp only [View.readAt_eq_ld, h2.read_unread, h3.read_unread, h4.read_unread, h5.read_unread, h7.read_unread,
    View.ld_unit_zero (S := S256x2) hz, View.ld_unit_zero (S := S256x1) hz, View.ld_unit_zero (S := S256x256) hz]

/-- The last point of a column tile leaves the same in the accumulator, -/
theorem acc_last (c : Dev nD) (i : grid0.Coords) (a2 : Memref sig .tc .vmem S256x2 .f32) (h2 : a2.IsWhole)
    (a3 : Memref sig .tc .vmem S256x1 .i32) (h3 : a3.IsWhole) (a4 : Memref sig .tc .vmem S2x256 .f32) (h4 : a4.IsWhole)
    (a5 : Memref sig .tc .vmem S2x256 .f32) (h5 : a5.IsWhole) (a6 : Memref sig .tc .vmem S256x256 .f32) (h6 : a6.IsWhole)
    (a7 : Memref sig .tc .vmem S256x256 .f32) (h7 : a7.IsWhole) (hc0 : ¬cond0_0 i) (hc1 : cond0_1 i)
    (x0 : Vec F S256x2 .f32) (x1 : Vec F S256x1 .i32) (x2 : Vec F S2x256 .f32) (x3 : Vec F S2x256 .f32) (xs : Vec F S256x256 .f32) :
    sout0_C_0 c i a2 h2 a3 h3 a4 h4 a5 h5 a6 h6 a7 h7 hc0 hc1 x0 x1 x2 x3 xs = k0_pay1 (contrib x0 x1 x2 x3) xs := by
  unfold sout0_C_0
  rw [View.read_writes_eq_canon _ _ _ (scover0_C_0 c i a2 h2 a3 h3 a4 h4 a5 h5 a6 h6 a7 h7 hc0 hc1 x0 x1 x2 x3 xs)]
  unfold kernelRun0_C
  dsimp only
  sl_unfold_words
  rw [View.canon_unit_zero hz]
  unfold contrib
  simp only [View.readAt_eq_ld, h2.read_unread, h3.read_unread, h4.read_unread, h5.read_unread, h7.read_unread,
    View.ld_unit_zero (S := S256x2) hz, View.ld_unit_zero (S := S256x1) hz, View.ld_unit_zero (S := S256x256) hz]

/-- and copies it into the output block. -/
theorem out_last (c : Dev nD) (i : grid0.Coords) (a2 : Memref sig .tc .vmem S256x2 .f32) (h2 : a2.IsWhole)
    (a3 : Memref sig .tc .vmem S256x1 .i32) (h3 : a3.IsWhole) (a4 : Memref sig .tc .vmem S2x256 .f32) (h4 : a4.IsWhole)
    (a5 : Memref sig .tc .vmem S2x256 .f32) (h5 : a5.IsWhole) (a6 : Memref sig .tc .vmem S256x256 .f32) (h6 : a6.IsWhole)
    (a7 : Memref sig .tc .vmem S256x256 .f32) (h7 : a7.IsWhole) (hc0 : ¬cond0_0 i) (hc1 : cond0_1 i)
    (x0 : Vec F S256x2 .f32) (x1 : Vec F S256x1 .i32) (x2 : Vec F S2x256 .f32) (x3 : Vec F S2x256 .f32) (xs : Vec F S256x256 .f32) :
    out0_C_4 c i a2 h2 a3 h3 a4 h4 a5 h5 a6 h6 a7 h7 hc0 hc1 x0 x1 x2 x3 xs = k0_pay1 (contrib x0 x1 x2 x3) xs := by
  unfold out0_C_4
  rw [View.read_writes_eq_canon _ _ _ (cover0_C_4 c i a2 h2 a3 h3 a4 h4 a5 h5 a6 h6 a7 h7 hc0 hc1 x0 x1 x2 x3 xs)]
  unfold kernelRun0_C
  dsimp only
  sl_unfold_words
  rw [View.canon_unit_zero hz, View.readCov_unit_zero (S := S256x256) _ hz]
  unfold contrib
  simp only [View.readAt_eq_ld, h2.read_unread, h3.read_unread, h4.read_unread, h5.read_unread, h7.read_unread,
    View.ld_unit_zero (S := S256x2) hz, View.ld_unit_zero (S := S256x1) hz, View.ld_unit_zero (S := S256x256) hz]

/-- The first point of a column tile zeroes the accumulator and leaves the zero block plus its contribution. -/
theorem acc_first (c : Dev nD) (i : grid0.Coords) (a2 : Memref sig .tc .vmem S256x2 .f32) (h2 : a2.IsWhole)
    (a3 : Memref sig .tc .vmem S256x1 .i32) (h3 : a3.IsWhole) (a4 : Memref sig .tc .vmem S2x256 .f32) (h4 : a4.IsWhole)
    (a5 : Memref sig .tc .vmem S2x256 .f32) (h5 : a5.IsWhole) (a6 : Memref sig .tc .vmem S256x256 .f32) (h6 : a6.IsWhole)
    (a7 : Memref sig .tc .vmem S256x256 .f32) (h7 : a7.IsWhole) (hc0 : cond0_0 i) (hc1 : ¬cond0_1 i)
    (x0 : Vec F S256x2 .f32) (x1 : Vec F S256x1 .i32) (x2 : Vec F S2x256 .f32) (x3 : Vec F S2x256 .f32) :
    sout0_A_0 c i a2 h2 a3 h3 a4 h4 a5 h5 a6 h6 a7 h7 hc0 hc1 x0 x1 x2 x3 = k0_pay1 (contrib x0 x1 x2 x3) k0_pay2 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S256x256) hz, View.readCov_unit_zero (S := S256x256) _ hz]
  unfold contrib
  simp only [View.readAt_eq_ld, h2.read_unread, h3.read_unread, h4.read_unread, h5.read_unread,
    View.ld_unit_zero (S := S256x2) hz, View.ld_unit_zero (S := S256x1) hz]

end Cert.KernelIdeal.Pieces

end
-- ==== Proof.LibRows.lean ====
/-
  A scatter-add of whole rows into a table, and a gather of whole rows out of one, read at an index.

  The host's accumulating scatter with one index per update row: entry (c, j) of the result is the operand's entry plus the
  sum of column j of every update row whose index, read as a signed integer, is c and lies inside the table; an update row
  whose index lies outside is dropped. The same for a table of scalars (no column).
  The host's gather of rows: entry (…, j) of the result is column j of the table row named by the index at (…), read as a
  signed integer and clamped into the table.
  The four dimension records below are the ones a row scatter and a row gather print as; a printed record is one of them
  with its own well-formedness proof.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- The word h, read signed, is the number of row c of a table of N rows. -/
def RowHit {w : Nat} (N : Nat) (h : BitVec w) (c : Fin N) : Prop :=
  0 ≤ h.toInt ∧ h.toInt < (N : Int) ∧ h.toInt.toNat = c.val

instance {w : Nat} (N : Nat) (h : BitVec w) (c : Fin N) : Decidable (RowHit N h c) := by unfold RowHit; infer_instance

/-- The word h, read signed and clamped into a table of N rows. -/
def rowClamp {w : Nat} (N : Nat) (hN : 0 < N) (h : BitVec w) : Fin N := ⟨min h.toInt.toNat (N - 1), by omega⟩

/-- A scatter of M rows of C columns into a table of N rows, one index per row. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- A scatter of M scalars into a table of N scalars, one index per scalar. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- A gather of rows of C columns out of a table of N rows, indexed by an A x B array of indices. -/
abbrev rowsGather3 (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A gather of rows of C columns out of a table of N rows, indexed by an A x B x D array of indices. -/
abbrev rowsGather4 (N C A B D : Nat)
    (wf : GatherDims.WF ⟨2, ![N, C]⟩ ⟨4, ![A, B, D, 1]⟩ ⟨4, ![A, B, D, C]⟩ [3] [0] [] [0] [] 3 ![1, C]) :
    GatherDims ⟨2, ![N, C]⟩ ⟨4, ![A, B, D, 1]⟩ ⟨4, ![A, B, D, C]⟩ where
  offsetDims := [3]
  collapsedSliceDims := [0]
  operandBatchingDims := []
  startIndicesBatchingDims := []
  startIndexMap := [0]
  indexVectorDim := 3
  sliceSizes := ![1, C]
  wf := wf

section RowsScatter

variable {N M C w : Nat} (wf : ScatterDims.WF ⟨2, ![N, C]⟩ ⟨2, ![M, 1]⟩ ⟨2, ![M, C]⟩ [1] [0] [0] 1)
  (idx : IVec ⟨2, ![M, 1]⟩ w) (q : Fin M) (j' : Fin C)

/-- On the table's row axis the window of update (q, j') starts at the q-th index, read signed. -/
private theorem rows_start0 : (rowsScatter N M C wf).start (ix2 q j') idx 0 = (idx (ix2 q 0)).toInt := by
  unfold ScatterDims.start
  rw [dif_pos (show (0 : Fin 2) ∈ (rowsScatter N M C wf).scatterDimsToOperandDims from List.mem_singleton.mpr rfl)]
  have hsi : (rowsScatter N M C wf).siIdx (ix2 q j') ⟨List.idxOf (0 : Fin 2) (rowsScatter N M C wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- On the column axis it starts at 0. -/
private theorem rows_start1 : (rowsScatter N M C wf).start (ix2 q j') idx 1 = 0 := by
  unfold ScatterDims.start
  rw [dif_neg (show (1 : Fin 2) ∉ ([0] : List (Fin 2)) by decide)]

/-- The row axis is inserted: no window coordinate. -/
private theorem rows_window0 : (rowsScatter N M C wf).window (ix2 q j') 0 = 0 := by
  have h0 : (0 : Fin 2) ∉ (List.finRange 2).filter (fun a => decide (a ∉ ([0] : List (Fin 2)))) := by decide
  unfold ScatterDims.window
  rw [dif_neg (show (0 : Fin 2) ∉ (rowsScatter N M C wf).sKept from h0)]

/-- The column axis carries the update's column. -/
private theorem rows_window1 : (rowsScatter N M C wf).window (ix2 q j') 1 = j'.val := by
  have h1 : (1 : Fin 2) ∈ (List.finRange 2).filter (fun a => decide (a ∉ ([0] : List (Fin 2)))) := by decide
  unfold ScatterDims.window
  rw [dif_pos (show (1 : Fin 2) ∈ (rowsScatter N M C wf).sKept from h1)]
  rfl

/-- Update (q, j') lands at (c, j) exactly when its index names row c inside the table and j' = j. -/
private theorem rows_hit (c : Fin N) (j : Fin C) :
    (rowsScatter N M C wf).resultIdx? (ix2 q j') idx = some (ix2 c j) ↔ RowHit N (idx (ix2 q 0)) c ∧ j' = j := by
  unfold ScatterDims.resultIdx?
  constructor
  · intro h
    split at h
    · rename_i hall
      have hf := Option.some.inj h
      have h0 : ((rowsScatter N M C wf).start (ix2 q j') idx 0 + ((rowsScatter N M C wf).window (ix2 q j') 0 : Nat)).toNat = c.val :=
        congrArg Fin.val (congrFun hf 0)
      have h1 : ((rowsScatter N M C wf).start (ix2 q j') idx 1 + ((rowsScatter N M C wf).window (ix2 q j') 1 : Nat)).toNat = j.val :=
        congrArg Fin.val (congrFun hf 1)
      have ha : 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int) := hall 0
      rw [rows_start0, rows_window0] at h0 ha
      rw [rows_start1, rows_window1] at h1
      refine ⟨⟨by omega, by omega, by omega⟩, Fin.ext (by omega)⟩
    · exact absurd h (by simp)
  · rintro ⟨⟨h0, h1, h2⟩, rfl⟩
    have hall : ∀ a, 0 ≤ (rowsScatter N M C wf).start (ix2 q j') idx a + ((rowsScatter N M C wf).window (ix2 q j') a : Nat)
        ∧ (rowsScatter N M C wf).start (ix2 q j') idx a + ((rowsScatter N M C wf).window (ix2 q j') a : Nat) < ((⟨2, ![N, C]⟩ : Shape).size a : Int) := by
      intro a
      match a with
      | ⟨0, _⟩ =>
        show 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int)
        rw [rows_start0, rows_window0]; omega
      | ⟨1, _⟩ =>
        show 0 ≤ (rowsScatter N M C wf).start (ix2 q j') idx 1 + ((rowsScatter N M C wf).window (ix2 q j') 1 : Nat)
          ∧ (rowsScatter N M C wf).start (ix2 q j') idx 1 + ((rowsScatter N M C wf).window (ix2 q j') 1 : Nat) < (C : Int)
        rw [rows_start1, rows_window1]; have := j'.isLt; omega
    rw [dif_pos hall]
    congr 1
    funext a
    refine Fin.ext ?_
    match a with
    | ⟨0, _⟩ =>
      show ((rowsScatter N M C wf).start (ix2 q j') idx 0 + ((rowsScatter N M C wf).window (ix2 q j') 0 : Nat)).toNat = c.val
      rw [rows_start0, rows_window0]; omega
    | ⟨1, _⟩ =>
      show ((rowsScatter N M C wf).start (ix2 q j') idx 1 + ((rowsScatter N M C wf).window (ix2 q j') 1 : Nat)).toNat = j'.val
      rw [rows_start1, rows_window1]; omega

end RowsScatter

section VecScatter

variable {N M w : Nat} (wf : ScatterDims.WF ⟨1, ![N]⟩ ⟨2, ![M, 1]⟩ ⟨1, ![M]⟩ [] [0] [0] 1)
  (idx : IVec ⟨2, ![M, 1]⟩ w) (q : Fin M)

/-- The window of update q starts at the q-th index, read signed. -/
private theorem vec_start0 : (vecScatter N M wf).start (ix1 q) idx 0 = (idx (ix2 q 0)).toInt := by
  unfold ScatterDims.start
  rw [dif_pos (show (0 : Fin 1) ∈ (vecScatter N M wf).scatterDimsToOperandDims from List.mem_singleton.mpr rfl)]
  have hsi : (vecScatter N M wf).siIdx (ix1 q) ⟨List.idxOf (0 : Fin 1) (vecScatter N M wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- The table's one axis is inserted: no window coordinate. -/
private theorem vec_window0 : (vecScatter N M wf).window (ix1 q) 0 = 0 := by
  have h0 : (0 : Fin 1) ∉ (List.finRange 1).filter (fun a => decide (a ∉ ([0] : List (Fin 1)))) := by decide
  unfold ScatterDims.window
  rw [dif_neg (show (0 : Fin 1) ∉ (vecScatter N M wf).sKept from h0)]

/-- Update q lands at c exactly when its index names entry c inside the table. -/
private theorem vec_hit (c : Fin N) :
    (vecScatter N M wf).resultIdx? (ix1 q) idx = some (ix1 c) ↔ RowHit N (idx (ix2 q 0)) c := by
  unfold ScatterDims.resultIdx?
  constructor
  · intro h
    split at h
    · rename_i hall
      have hf := Option.some.inj h
      have h0 : ((vecScatter N M wf).start (ix1 q) idx 0 + ((vecScatter N M wf).window (ix1 q) 0 : Nat)).toNat = c.val :=
        congrArg Fin.val (congrFun hf 0)
      have ha : 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int) := hall 0
      rw [vec_start0, vec_window0] at h0 ha
      exact ⟨by omega, by omega, by omega⟩
    · exact absurd h (by simp)
  · rintro ⟨h0, h1, h2⟩
    have hall : ∀ a, 0 ≤ (vecScatter N M wf).start (ix1 q) idx a + ((vecScatter N M wf).window (ix1 q) a : Nat)
        ∧ (vecScatter N M wf).start (ix1 q) idx a + ((vecScatter N M wf).window (ix1 q) a : Nat) < ((⟨1, ![N]⟩ : Shape).size a : Int) := by
      intro a
      match a with
      | ⟨0, _⟩ =>
        show 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int)
        rw [vec_start0, vec_window0]; omega
    rw [dif_pos hall]
    congr 1
    funext a
    refine Fin.ext ?_
    match a with
    | ⟨0, _⟩ =>
      show ((vecScatter N M wf).start (ix1 q) idx 0 + ((vecScatter N M wf).window (ix1 q) 0 : Nat)).toNat = c.val
      rw [vec_start0, vec_window0]; omega

end VecScatter

/-- THE ROW SCATTER-ADD READ AT (c, j). -/
theorem scatterAdd_rows_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (c : Fin N) (j : Fin C) :
    Host.scatterAdd (F := Ideal) (rowsScatter N M C wf) x idx upd (ix2 c j)
      = x (ix2 c j) + ∑ q ∈ Finset.univ.filter (fun q : Fin M => RowHit N (idx (ix2 q 0)) c), upd (ix2 q j) := by
  show Ideal.hostScatterAdd (rowsScatter N M C wf) x idx upd (ix2 c j) = _
  unfold Ideal.hostScatterAdd
  congr 1
  -- an update that lands at (c, j) hits row c and sits in column j
  have key : ∀ i : (⟨2, ![M, C]⟩ : Shape).Idx, (rowsScatter N M C wf).resultIdx? i idx = some (ix2 c j) →
      RowHit N (idx (ix2 (i 0) 0)) c ∧ ix2 (i 0) j = i := by
    intro i hi
    have hi2 : (rowsScatter N M C wf).resultIdx? (ix2 (i 0) (i 1)) idx = some (ix2 c j) :=
      Eq.mp (congrArg (fun t => (rowsScatter N M C wf).resultIdx? t idx = some (ix2 c j)) (eq_ix2 i)) hi
    obtain ⟨hr, hj⟩ := (rows_hit wf idx (i 0) (i 1) c j).mp hi2
    exact ⟨hr, (congrArg (fun t => ix2 (i 0) t) hj).symm.trans (eq_ix2 i).symm⟩
  -- so the updates landing at (c, j) are the (q, j) with q a hit, one for one
  refine Finset.sum_nbij' (fun i => (i 0 : Fin M)) (fun q => ix2 q j) ?_ ?_ ?_ ?_ ?_
  · intro i hi
    exact Finset.mem_filter.mpr ⟨Finset.mem_univ _, (key i (Finset.mem_filter.mp hi).2).1⟩
  · intro q hq
    exact Finset.mem_filter.mpr ⟨Finset.mem_univ _, (rows_hit wf idx q j c j).mpr ⟨(Finset.mem_filter.mp hq).2, rfl⟩⟩
  · intro i hi
    exact (key i (Finset.mem_filter.mp hi).2).2
  · intro q _
    rfl
  · intro i hi
    exact congrArg upd (key i (Finset.mem_filter.mp hi).2).2.symm

/-- THE SCALAR SCATTER-ADD READ AT c. -/
theorem scatterAdd_vec_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (F := Ideal) (vecScatter N M wf) x idx upd (ix1 c)
      = x (ix1 c) + ∑ q ∈ Finset.univ.filter (fun q : Fin M => RowHit N (idx (ix2 q 0)) c), upd (ix1 q) := by
  show Ideal.hostScatterAdd (vecScatter N M wf) x idx upd (ix1 c) = _
  unfold Ideal.hostScatterAdd
  congr 1
  -- an update that lands at c hits entry c
  have key : ∀ i : (⟨1, ![M]⟩ : Shape).Idx, (vecScatter N M wf).resultIdx? i idx = some (ix1 c) →
      RowHit N (idx (ix2 (i 0) 0)) c := by
    intro i hi
    have hi2 : (vecScatter N M wf).resultIdx? (ix1 (i 0)) idx = some (ix1 c) :=
      Eq.mp (congrArg (fun t => (vecScatter N M wf).resultIdx? t idx = some (ix1 c)) (eq_ix1 i)) hi
    exact (vec_hit wf idx (i 0) c).mp hi2
  -- so the updates landing at c are the hits, one for one
  refine Finset.sum_nbij' (fun i => (i 0 : Fin M)) (fun q => ix1 q) ?_ ?_ ?_ ?_ ?_
  · intro i hi
    exact Finset.mem_filter.mpr ⟨Finset.mem_univ _, key i (Finset.mem_filter.mp hi).2⟩
  · intro q hq
    exact Finset.mem_filter.mpr ⟨Finset.mem_univ _, (vec_hit wf idx q c).mpr (Finset.mem_filter.mp hq).2⟩
  · intro i _
    exact (eq_ix1 i).symm
  · intro q _
    rfl
  · intro i _
    exact congrArg upd (eq_ix1 i)

/-- THE ROW GATHER OVER AN A x B ARRAY OF INDICES READ AT (a, b, j). -/
theorem gather_rows3_apply {α : Type} {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C) :
    Host.gather (rowsGather3 N C A B wf) x idx (ix3 a b j) = x (ix2 (rowClamp N hN (idx (ix3 a b 0))) j) := by
  unfold Host.gather
  congr 1
  funext e
  refine Fin.ext ?_
  match e with
  | ⟨0, _⟩ =>
    show (rowsGather3 N C A B wf).start (ix3 a b j) idx 0 + (rowsGather3 N C A B wf).batchCoord (ix3 a b j) 0
      + (rowsGather3 N C A B wf).offCoord (ix3 a b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather3 N C A B wf).startIndexMap from List.mem_singleton.mpr rfl)]
    have hsi : (rowsGather3 N C A B wf).siIdx (ix3 a b j) ⟨List.idxOf (0 : Fin 2) (rowsGather3 N C A B wf).startIndexMap,
        List.idxOf_lt_length_iff.2 (List.mem_singleton.mpr rfl)⟩ = ix3 a b 0 := by
      funext b'; refine Fin.ext ?_
      match b' with
      | ⟨0, _⟩ => rfl
      | ⟨1, _⟩ => rfl
      | ⟨2, _⟩ => rfl
    rw [hsi]
    rfl
  | ⟨1, _⟩ =>
    show (rowsGather3 N C A B wf).start (ix3 a b j) idx 1 + (rowsGather3 N C A B wf).batchCoord (ix3 a b j) 1
      + (rowsGather3 N C A B wf).offCoord (ix3 a b j) 1 = j.val
    rw [GatherDims.batchCoord_eq_zero _ _ _ List.not_mem_nil]
    have hs : (rowsGather3 N C A B wf).start (ix3 a b j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- THE ROW GATHER OVER AN A x B x D ARRAY OF INDICES READ AT (a, b, d, j). -/
theorem gather_rows4_apply {α : Type} {N C A B D w : Nat} (hN : 0 < N)
    (wf : GatherDims.WF ⟨2, ![N, C]⟩ ⟨4, ![A, B, D, 1]⟩ ⟨4, ![A, B, D, C]⟩ [3] [0] [] [0] [] 3 ![1, C])
    (x : (⟨2, ![N, C]⟩ : Shape).Idx → α) (idx : IVec ⟨4, ![A, B, D, 1]⟩ w) (a : Fin A) (b : Fin B) (d : Fin D) (j : Fin C) :
    Host.gather (rowsGather4 N C A B D wf) x idx (ix4 a b d j) = x (ix2 (rowClamp N hN (idx (ix4 a b d 0))) j) := by
  unfold Host.gather
  congr 1
  funext e
  refine Fin.ext ?_
  match e with
  | ⟨0, _⟩ =>
    show (rowsGather4 N C A B D wf).start (ix4 a b d j) idx 0 + (rowsGather4 N C A B D wf).batchCoord (ix4 a b d j) 0
      + (rowsGather4 N C A B D wf).offCoord (ix4 a b d j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather4 N C A B D wf).startIndexMap from List.mem_singleton.mpr rfl)]
    have hsi : (rowsGather4 N C A B D wf).siIdx (ix4 a b d j) ⟨List.idxOf (0 : Fin 2) (rowsGather4 N C A B D wf).startIndexMap,
        List.idxOf_lt_length_iff.2 (List.mem_singleton.mpr rfl)⟩ = ix4 a b d 0 := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    show (rowsGather4 N C A B D wf).start (ix4 a b d j) idx 1 + (rowsGather4 N C A B D wf).batchCoord (ix4 a b d j) 1
      + (rowsGather4 N C A B D wf).offCoord (ix4 a b d j) 1 = j.val
    rw [GatherDims.batchCoord_eq_zero _ _ _ List.not_mem_nil]
    have hs : (rowsGather4 N C A B D wf).start (ix4 a b d j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.LibRows

end
-- ==== Proof.Spec.lean ====
/-
  Segment sums of exponential responses: the function both programs compute, and the two laws that join them.

  Point n (two coordinates) answers centre e with exp(-(w(e,0) (p(n,0) - c(e,0))^2 + w(e,1) (p(n,1) - c(e,1))^2)), the
  weights w being the softplus of a table of logarithms plus a small constant. Row s of the result sums the answers of
  the points whose segment id, read as a signed word, is s; an id outside 0 .. 255 names no row.

  One program forms this sum directly. The other walks the points in tiles of B, multiplies each tile's answers by a
  0/1 selector (1 where the id is the row), sums inside the tile and adds the tiles up. Over the extended reals
  0 * x = 0 and 1 * x = x for every x, infinite ones included, and sums regroup freely: the two are equal with no
  assumption on the inputs.
-/
import Idealize.ShloMosaic.PureOps.Ideal
import Idealize.ShloMosaic.Lib.ValueIdx
import proofs.«402350_j20486994002573_3_alg».proof.Proof.LibRows

noncomputable section

open scoped BigOperators

namespace Cert.SegResp

open Idealize.ShloMosaic Idealize.ShloMosaic.ValueIdx Cert.LibRows

/-! ## The function -/

/-- The softplus of one extended real, as both programs spell it on the host: max(x, 0) + log1p(exp(-|x - 0|)), behind
    a guard on x - 0 differing from itself that never fires on the extended reals. -/
def softplus1 (x : EReal) : EReal :=
  Scalar.select
    (FloatOps.cmpf (F := Ideal) (φ := .f32) .une
      (FloatOps.subf (F := Ideal) (φ := .f32) x (FloatOps.ofBits (F := Ideal) .f32 0x00000000#32))
      (FloatOps.subf (F := Ideal) (φ := .f32) x (FloatOps.ofBits (F := Ideal) .f32 0x00000000#32)))
    (FloatOps.addf (F := Ideal) (φ := .f32) x (FloatOps.ofBits (F := Ideal) .f32 0x00000000#32))
    (FloatOps.addf (F := Ideal) (φ := .f32)
      (FloatOps.maximumf (F := Ideal) (φ := .f32) x (FloatOps.ofBits (F := Ideal) .f32 0x00000000#32))
      (FloatOps.hostUnary (F := Ideal) (φ := .f32) .log1p (FloatOps.hostUnary (F := Ideal) (φ := .f32) .exp
        (FloatOps.hostNegf (F := Ideal) (φ := .f32) (FloatOps.hostAbsf (F := Ideal) (φ := .f32)
          (FloatOps.subf (F := Ideal) (φ := .f32) x (FloatOps.ofBits (F := Ideal) .f32 0x00000000#32)))))))

/-- A weight: the softplus of its logarithm plus the small constant both programs add. -/
def weight1 (x : EReal) : EReal :=
  FloatOps.addf (F := Ideal) (φ := .f32) (softplus1 x) (FloatOps.ofBits (F := Ideal) .f32 0x358637BD#32)

/-- The answer of point n to centre e. -/
def resp (P : (⟨2, ![262144, 2]⟩ : Shape).Idx → EReal) (Cn L : (⟨2, ![512, 2]⟩ : Shape).Idx → EReal)
    (n : Fin 262144) (e : Fin 512) : EReal :=
  Ideal.exp (-(weight1 (L (ix2 e 0)) * ((P (ix2 n 0) - Cn (ix2 e 0)) * (P (ix2 n 0) - Cn (ix2 e 0)))
    + weight1 (L (ix2 e 1)) * ((P (ix2 n 1) - Cn (ix2 e 1)) * (P (ix2 n 1) - Cn (ix2 e 1)))))

/-- Row s, column e of the result: the sum of the answers to centre e of the points whose id names row s. -/
def segSum (P : (⟨2, ![262144, 2]⟩ : Shape).Idx → EReal) (seg : (⟨1, ![262144]⟩ : Shape).Idx → BitVec 32)
    (Cn L : (⟨2, ![512, 2]⟩ : Shape).Idx → EReal) (s : Fin 256) (e : Fin 512) : EReal :=
  ∑ q ∈ Finset.univ.filter (fun q : Fin 262144 => RowHit 256 (seg (ix1 q)) s), resp P Cn L q e

/-- The result array. -/
def segSums (P : (⟨2, ![262144, 2]⟩ : Shape).Idx → EReal) (seg : (⟨1, ![262144]⟩ : Shape).Idx → BitVec 32)
    (Cn L : (⟨2, ![512, 2]⟩ : Shape).Idx → EReal) : (⟨2, ![256, 512]⟩ : Shape).Idx → EReal :=
  fun i => segSum P seg Cn L (i 0) (i 1)

/-! ## The selector word -/

/-- A 32-bit word names row s of a 256-row table exactly when it is the word of s. -/
theorem rowHit_iff (h : BitVec 32) (s : Fin 256) : RowHit 256 h s ↔ h = BitVec.ofNat 32 s.val := by
  have hs := s.isLt
  have hn := h.isLt
  have hi := BitVec.toInt_eq_toNat_cond h
  constructor
  · rintro ⟨h0, h1, h2⟩
    apply BitVec.eq_of_toNat_eq
    rw [BitVec.toNat_ofNat, Nat.mod_eq_of_lt (by omega)]
    split_ifs at hi <;> omega
  · intro e
    have ht : h.toNat = s.val := by rw [e, BitVec.toNat_ofNat, Nat.mod_eq_of_lt (by omega)]
    unfold RowHit
    split_ifs at hi <;> omega

/-- The selector entry, an equality test widened to a word and read as a number, is 1 on a hit and 0 off it. -/
theorem selector_eq (h : BitVec 32) (s : Fin 256) :
    ((((BitVec.ofBool (h == BitVec.ofNat 32 s.val)).setWidth 32).toInt : ℝ) : EReal)
      = if RowHit 256 h s then 1 else 0 := by
  by_cases hh : h = BitVec.ofNat 32 s.val
  · rw [if_pos ((rowHit_iff h s).mpr hh), hh]
    simp
  · rw [if_neg (fun hr => hh ((rowHit_iff h s).mp hr))]
    have : (h == BitVec.ofNat 32 s.val) = false := by simpa using hh
    rw [this]
    simp

/-! ## Regrouping -/

/-- A sum over T tiles of B consecutive naturals is the sum over the first T * B naturals. -/
theorem sum_tiles (T B : ℕ) (g : ℕ → EReal) :
    ∑ s ∈ Finset.range T, ∑ r ∈ Finset.range B, g (B * s + r) = ∑ n ∈ Finset.range (T * B), g n := by
  induction T with
  | zero => simp
  | succ T ih =>
    rw [Finset.sum_range_succ, ih, Nat.succ_mul, Finset.sum_range_add]
    congr 1
    exact Finset.sum_congr rfl fun r _ => by rw [Nat.mul_comm]

/-- Tile by tile, the selector-weighted sums add up to the sum over the selected indices. -/
theorem selector_tiles (T B : ℕ) (p : ℕ → Prop) [DecidablePred p] (f : ℕ → EReal) :
    ∑ s ∈ Finset.range T, ∑ r : Fin B, (if p (B * s + r.val) then (1 : EReal) else 0) * f (B * s + r.val)
      = ∑ q ∈ (Finset.univ : Finset (Fin (T * B))).filter (fun q => p q.val), f q.val := by
  rw [Finset.sum_filter, ← Finset.sum_range (fun n => if p n then f n else 0), ← sum_tiles T B]
  refine Finset.sum_congr rfl fun s _ => ?_
  rw [← Finset.sum_range (fun r => (if p (B * s + r) then (1 : EReal) else 0) * f (B * s + r))]
  refine Finset.sum_congr rfl fun r _ => ?_
  by_cases hp : p (B * s + r)
  · rw [if_pos hp, if_pos hp, one_mul]
  · rw [if_neg hp, if_neg hp, zero_mul]

/-- Row r of tile s among all the points. -/
def tilePt (s : Fin 1024) (r : Fin 256) : Fin 262144 :=
  ⟨256 * s.val + r.val, by have := s.isLt; have := r.isLt; omega⟩

/-- The 1024 tiles' selector-weighted sums of answers add up to the segment sum. -/
theorem segSum_tiles (P : (⟨2, ![262144, 2]⟩ : Shape).Idx → EReal) (seg : (⟨1, ![262144]⟩ : Shape).Idx → BitVec 32)
    (Cn L : (⟨2, ![512, 2]⟩ : Shape).Idx → EReal) (row : Fin 256) (E : Fin 512) :
    ∑ s : Fin 1024, ∑ r : Fin 256,
        (if RowHit 256 (seg (ix1 (tilePt s r))) row then (1 : EReal) else 0) * resp P Cn L (tilePt s r) E
      = segSum P seg Cn L row E := by
  classical
  let p : ℕ → Prop := fun n => ∃ h : n < 262144, RowHit 256 (seg (ix1 ⟨n, h⟩)) row
  let f : ℕ → EReal := fun n => if h : n < 262144 then resp P Cn L ⟨n, h⟩ E else 0
  have hp : ∀ q : Fin 262144, p q.val ↔ RowHit 256 (seg (ix1 q)) row := fun q => ⟨fun ⟨_, h⟩ => h, fun h => ⟨q.isLt, h⟩⟩
  have hf : ∀ q : Fin 262144, f q.val = resp P Cn L q E := fun q => dif_pos q.isLt
  have key : ∑ s ∈ Finset.range 1024, ∑ r : Fin 256, (if p (256 * s + r.val) then (1 : EReal) else 0) * f (256 * s + r.val)
      = ∑ q ∈ (Finset.univ : Finset (Fin 262144)).filter (fun q => p q.val), f q.val := selector_tiles 1024 256 p f
  rw [Finset.sum_range (fun s => ∑ r : Fin 256, (if p (256 * s + r.val) then (1 : EReal) else 0) * f (256 * s + r.val))] at key
  unfold segSum
  refine Eq.trans (Finset.sum_congr rfl fun s _ => Finset.sum_congr rfl fun r _ => ?_) (key.trans ?_)
  · exact congrArg₂ (· * ·) (if_congr (hp (tilePt s r)).symm rfl rfl) (hf (tilePt s r)).symm
  · exact Finset.sum_congr (Finset.filter_congr fun q _ => hp q) fun q _ => hf q

end Cert.SegResp

end
-- ==== Proof.KernelBody.lean ====
/-
  One grid point's contribution, entry by entry, over the extended reals.

  Entry (s, c) of the contribution is the sum over the point's 256 rows r of the selector (1 if row r's segment id names
  s, else 0) times the row's answer at column c: the exponential of zero minus (w0 (p0 - c0)^2 + w1 (p1 - c1)^2), the
  centre and weight read from rows 0 and 1 of their 2 x 256 blocks at column c, the point's coordinates from columns 0
  and 1 of its block at row r. The product contracts the first axis of both operands, so the selector is used transposed.
-/
import proofs.«402350_j20486994002573_3_alg».proof.Proof.KernelPieces
import proofs.«402350_j20486994002573_3_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Body

open Cert.KernelIdeal Cert.KernelIdeal.Gen Cert.KernelIdeal.Pieces Idealize.ShloMosaic Idealize.ShloMosaic.ValueIdx
open Cert.LibRows Cert.SegResp

/-! ## The product's operand indices -/

theorem lhs_contr (j : S256x256.Idx) (k : dot_S256x256_S256x256_S256x256_0_0_1_1_n_n.contr.Idx) :
    (dot_S256x256_S256x256_S256x256_0_0_1_1_n_n.lhsIdx j k 0).val
      = (k ⟨0, by rw [dot_S256x256_S256x256_S256x256_0_0_1_1_n_n.rank_contr]; exact Nat.one_pos⟩).val :=
  dot_S256x256_S256x256_S256x256_0_0_1_1_n_n.lhsIdx_val_of_single rfl j k

theorem rhs_contr (j : S256x256.Idx) (k : dot_S256x256_S256x256_S256x256_0_0_1_1_n_n.contr.Idx) :
    (dot_S256x256_S256x256_S256x256_0_0_1_1_n_n.rhsIdx j k 0).val
      = (k ⟨0, by rw [dot_S256x256_S256x256_S256x256_0_0_1_1_n_n.rank_contr]; exact Nat.one_pos⟩).val :=
  dot_S256x256_S256x256_S256x256_0_0_1_1_n_n.rhsIdx_val_of_single rfl j k

theorem lhs_free (j : S256x256.Idx) (k : dot_S256x256_S256x256_S256x256_0_0_1_1_n_n.contr.Idx) :
    (dot_S256x256_S256x256_S256x256_0_0_1_1_n_n.lhsIdx j k 1).val = (j 0).val := by
  unfold DotDims.lhsIdx
  rw [dif_neg (show ¬(1 : Fin S256x256.rank) ∈ dot_S256x256_S256x256_S256x256_0_0_1_1_n_n.lhsBatch by decide),
    dif_pos (show (1 : Fin S256x256.rank) ∈ dot_S256x256_S256x256_S256x256_0_0_1_1_n_n.lhsNonContracting by decide)]
  rfl

theorem rhs_free (j : S256x256.Idx) (k : dot_S256x256_S256x256_S256x256_0_0_1_1_n_n.contr.Idx) :
    (dot_S256x256_S256x256_S256x256_0_0_1_1_n_n.rhsIdx j k 1).val = (j 1).val := by
  unfold DotDims.rhsIdx
  rw [dif_neg (show ¬(1 : Fin S256x256.rank) ∈ dot_S256x256_S256x256_S256x256_0_0_1_1_n_n.rhsBatch by decide),
    dif_pos (show (1 : Fin S256x256.rank) ∈ dot_S256x256_S256x256_S256x256_0_0_1_1_n_n.rhsNonContracting by decide)]
  rfl

/-- The contraction index is its one coordinate, a row of the point's tile. -/
abbrev rowEquiv : dot_S256x256_S256x256_S256x256_0_0_1_1_n_n.contr.Idx ≃ Fin 256 :=
  contrEquiv1 dot_S256x256_S256x256_S256x256_0_0_1_1_n_n 256 rfl rfl

/-- At result entry (s, c) and row r the left operand is read at (r, s), -/
theorem lhs_at (s c r : Fin 256) :
    dot_S256x256_S256x256_S256x256_0_0_1_1_n_n.lhsIdx (ix2 s c) (rowEquiv.symm r) = ix2 r s :=
  funext fun a => Fin.ext (by
    match a with
    | ⟨0, _⟩ => exact (lhs_contr _ _).trans (contrEquiv1_symm_val _ 256 rfl rfl r)
    | ⟨1, _⟩ => exact lhs_free _ _)

/-- and the right operand at (r, c). -/
theorem rhs_at (s c r : Fin 256) :
    dot_S256x256_S256x256_S256x256_0_0_1_1_n_n.rhsIdx (ix2 s c) (rowEquiv.symm r) = ix2 r c :=
  funext fun a => Fin.ext (by
    match a with
    | ⟨0, _⟩ => exact (rhs_contr _ _).trans (contrEquiv1_symm_val _ 256 rfl rfl r)
    | ⟨1, _⟩ => exact rhs_free _ _)

/-! ## Layout operations of the body at an entry -/

theorem col_bcast {α : Type} (v : S256x1.Idx → α) (r c : Fin 256) :
    broadcastTo S256x256 v broadcasts_S256x1_S256x256 (ix2 r c) = v (ix2 r 0) :=
  broadcastTo_apply v _ (ix2 r c) (ix2 r 0) (fun a => by match a with | ⟨0, _⟩ => rfl | ⟨1, _⟩ => rfl)

theorem row_bcast {α : Type} (v : S1x256.Idx → α) (r c : Fin 256) :
    broadcastTo S256x256 v broadcasts_S1x256_S256x256 (ix2 r c) = v (ix2 0 c) :=
  broadcastTo_apply v _ (ix2 r c) (ix2 0 c) (fun a => by match a with | ⟨0, _⟩ => rfl | ⟨1, _⟩ => rfl)

theorem col0 {α : Type} (v : S256x2.Idx → α) (r : Fin 256) :
    extractStridedSlice S256x1 ![0, 0] v slices_S256x2_o0_0_S256x1 (ix2 r 0) = v (ix2 r 0) :=
  extractStridedSlice_apply _ v _ (ix2 r 0) (ix2 r 0) (fun a => by match a with | ⟨0, _⟩ => exact (Nat.zero_add _).symm | ⟨1, _⟩ => rfl)

theorem col1 {α : Type} (v : S256x2.Idx → α) (r : Fin 256) :
    extractStridedSlice S256x1 ![0, 1] v slices_S256x2_o0_1_S256x1 (ix2 r 0) = v (ix2 r 1) :=
  extractStridedSlice_apply _ v _ (ix2 r 0) (ix2 r 1) (fun a => by match a with | ⟨0, _⟩ => exact (Nat.zero_add _).symm | ⟨1, _⟩ => rfl)

theorem ld_row0 (v : Vec Ideal S2x256 .f32) (c : Fin 256) : View.ld v row0 (ix2 0 c) = v (ix2 0 c) :=
  congrArg v (funext fun a => Fin.ext (by match a with | ⟨0, _⟩ => rfl | ⟨1, _⟩ => exact (by show 0 + 1 * c.val = c.val; omega)))

theorem ld_row1 (v : Vec Ideal S2x256 .f32) (c : Fin 256) : View.ld v row1 (ix2 0 c) = v (ix2 1 c) :=
  congrArg v (funext fun a => Fin.ext (by match a with | ⟨0, _⟩ => rfl | ⟨1, _⟩ => exact (by show 0 + 1 * c.val = c.val; omega)))

/-! ## The contribution at an entry -/

/-- Row r's answer at column c of the tile, from the point's blocks. -/
def tileAns (x0 : Vec Ideal S256x2 .f32) (x2 x3 : Vec Ideal S2x256 .f32) (r c : Fin 256) : EReal :=
  Ideal.exp (0 - (x3 (ix2 0 c) * ((x0 (ix2 r 0) - x2 (ix2 0 c)) * (x0 (ix2 r 0) - x2 (ix2 0 c)))
    + x3 (ix2 1 c) * ((x0 (ix2 r 1) - x2 (ix2 1 c)) * (x0 (ix2 r 1) - x2 (ix2 1 c)))))

theorem contrib_apply (x0 : Vec Ideal S256x2 .f32) (x1 : Vec Ideal S256x1 .i32) (x2 x3 : Vec Ideal S2x256 .f32) (s c : Fin 256) :
    contrib (F := Ideal) x0 x1 x2 x3 (ix2 s c)
      = ∑ r : Fin 256, (if RowHit 256 (x1 (ix2 r 0)) s then (1 : EReal) else 0) * tileAns x0 x2 x3 r c := by
  unfold contrib k0_pay3
  dsimp only
  refine (Ideal.matmul_constant_zero_apply dot_S256x256_S256x256_S256x256_0_0_1_1_n_n none _ _ (ix2 s c)).trans ?_
  rw [← Equiv.sum_comp rowEquiv.symm]
  refine Finset.sum_congr rfl fun r _ => ?_
  rw [lhs_at, rhs_at]
  refine congrArg₂ (· * ·) ?_ ?_
  · -- the selector: an equality test of the row's id against the column number s, widened and converted
    show ((((BitVec.ofBool (broadcastTo S256x256 (shapeCast S256x1 x1 shapeCasts_S256x1_S256x1) broadcasts_S256x1_S256x256 (ix2 r s)
        == BitVec.ofNat 32 (0 * 256 + s.val))).setWidth 32).toInt : ℝ) : EReal) = _
    rw [col_bcast, shapeCast_self, Nat.zero_mul, Nat.zero_add]
    exact selector_eq _ s
  · -- the answer: pointwise arithmetic on broadcast rows and columns
    unfold tileAns
    simp only [truncf, Idealize.ShloMosaic.exp, subf, addf, mulf, broadcast, Ideal.truncf_def, Ideal.exp_def, Ideal.subf_def,
      Ideal.addf_def, Ideal.mulf_def, Ideal.ofBits_def, Ideal.ofBits_zero_f32, row_bcast, col_bcast, col0, col1,
      shapeCast_self]
    rw [ld_row0 x3 c, ld_row0 x2 c, ld_row1 x3 c, ld_row1 x2 c]

end Cert.KernelIdeal.Body

end
-- ==== Proof.KernelBlocks.lean ====
/-
  The blocks a grid point reads, as entries of the program's arguments.

  Point t of the 2 x 1024 grid works on column tile t / 1024 and row tile t % 1024. Its block of points is rows
  256 (t % 1024) .. + 255 of the points, its block of segment ids the same rows of the ids (reshaped to a column), its
  blocks of centres and weights columns 256 (t / 1024) .. + 255 of the transposed centres and of the transposed weight
  table. The weight table is computed on the host before the launch: the softplus of the transposed logarithms plus the
  small constant, entry by entry, so its entry (d, e) is the weight of the logarithm at (e, d).
-/
import proofs.«402350_j20486994002573_3_alg».proof.Proof.Gen.KernelIdeal.Frame
import proofs.«402350_j20486994002573_3_alg».proof.Proof.Spec
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.SegResp

variable (m : (ℓ : Loc nD τ sig) → Buf (Elt Ideal) ℓ)

/-! ## Which block each window reads at a point -/

theorem idx_pts : ∀ t : Fin cfg0.N, win0_0.index t 0 = t.val % 1024 ∧ win0_0.index t 1 = 0 :=
  (by decide +kernel : ∀ t : Fin grid0.N, win0_0.index t 0 = t.val % 1024 ∧ win0_0.index t 1 = 0)
theorem idx_seg : ∀ t : Fin cfg0.N, win0_1.index t 0 = t.val % 1024 ∧ win0_1.index t 1 = 0 :=
  (by decide +kernel : ∀ t : Fin grid0.N, win0_1.index t 0 = t.val % 1024 ∧ win0_1.index t 1 = 0)
theorem idx_cen : ∀ t : Fin cfg0.N, win0_2.index t 0 = 0 ∧ win0_2.index t 1 = t.val / 1024 :=
  (by decide +kernel : ∀ t : Fin grid0.N, win0_2.index t 0 = 0 ∧ win0_2.index t 1 = t.val / 1024)
theorem idx_wgt : ∀ t : Fin cfg0.N, win0_3.index t 0 = 0 ∧ win0_3.index t 1 = t.val / 1024 :=
  (by decide +kernel : ∀ t : Fin grid0.N, win0_3.index t 0 = 0 ∧ win0_3.index t 1 = t.val / 1024)
theorem idx_out : ∀ t : Fin cfg0.N, win0_4.index t 0 = 0 ∧ win0_4.index t 1 = t.val / 1024 :=
  (by decide +kernel : ∀ t : Fin grid0.N, win0_4.index t 0 = 0 ∧ win0_4.index t 1 = t.val / 1024)

/-! ## The arrays the host prepares before the launch -/

/-- The segment ids as a column. -/
theorem V_seg (c : Dev nD) :
    (V m c main_v0 : IVec S262144x1 32) = shapeCast S262144x1 (m ((c : Thread nD τ).loc main_arg1)) shapeCasts_S262144_S262144x1 := by
  dsimp only [V]
  simp only [hostOps0, hostOps0_1, hostOps0_2, List.flatten_cons, List.flatten_nil, List.append_nil, List.cons_append,
    List.nil_append]
  after_results
  rfl

/-- The centres, transposed. -/
theorem V_cen (c : Dev nD) :
    (V m c main_v1 : FVec Ideal S2x512 .f32)
      = transpose S2x512 [1, 0] (m ((c : Thread nD τ).loc main_arg2)) transposes_S512x2_S2x512_1_0 := by
  dsimp only [V]
  simp only [hostOps0, hostOps0_1, hostOps0_2, List.flatten_cons, List.flatten_nil, List.append_nil, List.cons_append,
    List.nil_append]
  after_results

/-- The weight table as the host computes it from the transposed logarithms. -/
def wgtT (L : FVec Ideal S512x2 .f32) : FVec Ideal S2x512 .f32 :=
  addf
    (select
      (cmpf .une
        (subf (transpose S2x512 [1, 0] L transposes_S512x2_S2x512_1_0)
          (broadcastInDim S2x512 ![] bcast_S_S2x512 (constant (F := Ideal) S_ .f32 0x00000000#32)))
        (subf (transpose S2x512 [1, 0] L transposes_S512x2_S2x512_1_0)
          (broadcastInDim S2x512 ![] bcast_S_S2x512 (constant (F := Ideal) S_ .f32 0x00000000#32))))
      (addf (transpose S2x512 [1, 0] L transposes_S512x2_S2x512_1_0)
        (broadcastInDim S2x512 ![] bcast_S_S2x512 (constant (F := Ideal) S_ .f32 0x00000000#32)))
      (addf
        (maximumf (transpose S2x512 [1, 0] L transposes_S512x2_S2x512_1_0)
          (broadcastInDim S2x512 ![] bcast_S_S2x512 (constant (F := Ideal) S_ .f32 0x00000000#32)))
        (Host.log1p (Host.exp (Host.negf (Host.absf
          (subf (transpose S2x512 [1, 0] L transposes_S512x2_S2x512_1_0)
            (broadcastInDim S2x512 ![] bcast_S_S2x512 (constant (F := Ideal) S_ .f32 0x00000000#32)))))))))
    (broadcastInDim S2x512 ![] bcast_S_S2x512 (constant (F := Ideal) S_ .f32 0x358637BD#32))

theorem V_wgt (c : Dev nD) :
    (V m c main_v5 : FVec Ideal S2x512 .f32) = wgtT (m ((c : Thread nD τ).loc main_arg3)) := by
  dsimp only [V]
  simp only [hostOps0, hostOps0_1, hostOps0_2, List.flatten_cons, List.flatten_nil, List.append_nil, List.cons_append,
    List.nil_append]
  after_results_simp
  rfl

/-- Entry (d, e) of the weight table is the weight of the logarithm at (e, d). -/
theorem wgtT_apply (L : FVec Ideal S512x2 .f32) (d : Fin 2) (e : Fin 512) : wgtT L (ix2 d e) = weight1 (L (ix2 e d)) := by
  have ha : transpose S2x512 [1, 0] L transposes_S512x2_S2x512_1_0 (ix2 d e) = L (ix2 e d) :=
    transpose_apply _ L _ (ix2 d e) (ix2 e d) (fun b => by match b with | ⟨0, _⟩ => rfl | ⟨1, _⟩ => rfl)
  rw [← ha]
  rfl

/-! ## The blocks at a point -/

theorem ptsBlk_apply (c : Dev nD) (t : Fin cfg0.N) (r : Fin 256) (d : Fin 2) (N : Fin 262144)
    (hN : N.val = 256 * (t.val % 1024) + r.val) :
    (iblk m c 0 t : Vec Ideal S256x2 .f32) (ix2 r d) = m ((c : Thread nD τ).loc main_arg0) (ix2 N d) := by
  have hi := idx_pts t
  unfold iblk
  rw [View.read_apply]
  show V m c main_arg0 _ = _
  rw [V_main_arg0]
  refine congrArg _ (funext fun a => Fin.ext ?_)
  match a with
  | ⟨0, _⟩ => show win0_0.index t 0 * 256 + 1 * r.val = N.val; rw [hi.1, hN]; omega
  | ⟨1, _⟩ => show win0_0.index t 1 * 2 + 1 * d.val = d.val; rw [hi.2]; omega

theorem segBlk_apply (c : Dev nD) (t : Fin cfg0.N) (r : Fin 256) (N : Fin 262144)
    (hN : N.val = 256 * (t.val % 1024) + r.val) :
    (iblk m c 1 t : Vec Ideal S256x1 .i32) (ix2 r 0) = m ((c : Thread nD τ).loc main_arg1) (ix1 N) := by
  have hi := idx_seg t
  unfold iblk
  rw [View.read_apply]
  show (V m c main_v0 : IVec S262144x1 32) _ = _
  rw [V_seg]
  refine shapeCast_apply _ _ _ (ix1 N) ?_
  rw [Shape.rowMajor_val_one, Shape.rowMajor_val_two]
  show N.val = (win0_1.index t 0 * 256 + 1 * r.val) * 1 + (win0_1.index t 1 * 1 + 1 * 0)
  rw [hi.1, hi.2, hN]; omega

theorem cenBlk_apply (c : Dev nD) (t : Fin cfg0.N) (d : Fin 2) (e : Fin 256) (E : Fin 512)
    (hE : E.val = 256 * (t.val / 1024) + e.val) :
    (iblk m c 2 t : Vec Ideal S2x256 .f32) (ix2 d e) = m ((c : Thread nD τ).loc main_arg2) (ix2 E d) := by
  have hi := idx_cen t
  unfold iblk
  rw [View.read_apply]
  show (V m c main_v1 : FVec Ideal S2x512 .f32) _ = _
  rw [V_cen]
  refine transpose_apply _ _ _ _ (ix2 E d) (fun b => ?_)
  match b with
  | ⟨0, _⟩ => show d.val = win0_2.index t 0 * 2 + 1 * d.val; rw [hi.1]; omega
  | ⟨1, _⟩ => show E.val = win0_2.index t 1 * 256 + 1 * e.val; rw [hi.2, hE]; omega

theorem wgtBlk_apply (c : Dev nD) (t : Fin cfg0.N) (d : Fin 2) (e : Fin 256) (E : Fin 512)
    (hE : E.val = 256 * (t.val / 1024) + e.val) :
    (iblk m c 3 t : Vec Ideal S2x256 .f32) (ix2 d e) = weight1 (m ((c : Thread nD τ).loc main_arg3) (ix2 E d)) := by
  have hi := idx_wgt t
  unfold iblk
  rw [View.read_apply]
  show (V m c main_v5 : FVec Ideal S2x512 .f32) _ = _
  rw [V_wgt, ← wgtT_apply]
  refine congrArg _ (funext fun a => Fin.ext ?_)
  match a with
  | ⟨0, _⟩ => show win0_3.index t 0 * 2 + 1 * d.val = d.val; rw [hi.1]; omega
  | ⟨1, _⟩ => show win0_3.index t 1 * 256 + 1 * e.val = E.val; rw [hi.2, hE]; omega

end Cert.KernelIdeal.Blocks

end
-- ==== Proof.KernelValue.lean ====
/-
  The kernel's result array holds the segment sums.

  Within a column tile the accumulator after a point is zero plus the contributions of the tile's points so far; the
  tile's last point copies it to the output block, which is written back to columns 256 q .. 256 q + 255 of the result.
  Entry (s, e) of that block is therefore the sum over the 1024 row tiles of the selector-weighted sums of answers, which
  is the segment sum. The two column tiles' blocks cover the result.
-/
import proofs.«402350_j20486994002573_3_alg».proof.Proof.Gen.KernelIdeal.Value
import proofs.«402350_j20486994002573_3_alg».proof.Proof.KernelBody
import proofs.«402350_j20486994002573_3_alg».proof.Proof.KernelBlocks

noncomputable section

open scoped BigOperators

namespace Cert.KernelIdeal.SegValue

open Cert.KernelIdeal Cert.KernelIdeal.Gen Cert.KernelIdeal.Value Cert.KernelIdeal.Pieces Cert.KernelIdeal.Body
open Cert.KernelIdeal.Blocks Idealize.ShloMosaic Idealize.ShloMosaic.TcCoe Idealize.SL.Sem Idealize.ShloMosaic.ValueIdx
open Idealize.ShloMosaic.Pipeline (Dat)
open Cert.LibRows Cert.SegResp

variable (m : (ℓ : Loc nD τ sig) → Buf (Elt Ideal) ℓ) (ρ : Dev nD → PrngReg)

/-- The result: the segment sums of the launch arguments. -/
abbrev result (c : Dev nD) : Buf (Elt Ideal) ((c : Thread nD τ).loc main_v6) :=
  segSums (m ((c : Thread nD τ).loc main_arg0)) (m ((c : Thread nD τ).loc main_arg1))
    (m ((c : Thread nD τ).loc main_arg2)) (m ((c : Thread nD τ).loc main_arg3))

theorem result_apply (c : Dev nD) (row : Fin 256) (E : Fin 512) :
    result m c (ix2 row E) = segSum (m ((c : Thread nD τ).loc main_arg0)) (m ((c : Thread nD τ).loc main_arg1))
      (m ((c : Thread nD τ).loc main_arg2)) (m ((c : Thread nD τ).loc main_arg3)) row E := rfl

/-! ## The accumulator after each point -/

/-- Point n's contribution (zero past the grid's end, where it is never used). -/
def addend (c : Dev nD) (n : ℕ) : S256x256.Idx → EReal := fun i =>
  if h : n < cfg0.N then contrib (F := Ideal) (iblk m c 0 ⟨n, h⟩) (iblk m c 1 ⟨n, h⟩) (iblk m c 2 ⟨n, h⟩) (iblk m c 3 ⟨n, h⟩) i
  else 0

theorem pay1_apply (v acc : Vec Ideal S256x256 .f32) (i : S256x256.Idx) : k0_pay1 (F := Ideal) v acc i = acc i + v i := by
  unfold k0_pay1
  simp only [shapeCast_self]
  rfl

theorem pay2_apply (i : S256x256.Idx) : k0_pay2 (F := Ideal) i = 0 := by
  unfold k0_pay2
  simp only [shapeCast_self]
  exact Ideal.ofBits_zero_f32

/-- At the first point of a column tile the accumulator becomes zero plus the point's contribution. -/
theorem step_first (c : Dev nD) (n : ℕ) (hb : n < cfg0.N) (h0 : n % 1024 = 0) (acc : Vec Ideal S256x256 .f32)
    (i : S256x256.Idx) : scAt0_0 m c n hb acc i = 0 + addend m c n i := by
  have h1 : ¬n % 1024 = 1023 := by omega
  unfold scAt0_0
  rw [dif_pos h0, dif_neg h1]
  refine (congrFun (acc_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) i).trans ?_
  rw [pay1_apply, pay2_apply]
  unfold addend
  rw [dif_pos hb]

/-- At every later point it grows by the point's contribution. -/
theorem step_later (c : Dev nD) (n : ℕ) (hb : n < cfg0.N) (h0 : ¬n % 1024 = 0) (acc : Vec Ideal S256x256 .f32)
    (i : S256x256.Idx) : scAt0_0 m c n hb acc i = acc i + addend m c n i := by
  unfold scAt0_0
  rw [dif_neg h0]
  by_cases h1 : n % 1024 = 1023
  · rw [dif_pos h1]
    refine (congrFun (acc_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) i).trans ?_
    rw [pay1_apply]
    unfold addend
    rw [dif_pos hb]
  · rw [dif_neg h1]
    refine (congrFun (acc_later (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) i).trans ?_
    rw [pay1_apply]
    unfold addend
    rw [dif_pos hb]

/-- The accumulator after point t: zero plus the contributions of its column tile's points up to t. -/
theorem scratch_eq (c : Dev nD) (t : Fin cfg0.N) (i : S256x256.Idx) :
    (outsAt0 m c t.val t.isLt).2 i
      = 0 + ∑ s ∈ Finset.range (t.val % 1024 + 1), addend m c (1024 * (t.val / 1024) + s) i := by
  rw [soutsAt0_0_eq]
  exact Pipeline.accAt_add_apply _ _ (fun _ => (0 : EReal)) (addend m c) (1024 * (t.val / 1024)) 1023
    (fun h i => step_first m c _ h (Nat.mul_mod_right _ _) _ i)
    (fun n h acc i hlo hhi => step_later m c n h (by omega) acc i)
    (t.val % 1024) (by omega) _ i

/-- At the last point of a column tile the output block is a copy of the accumulator. -/
theorem out_eq_scratch (c : Dev nD) (t : Fin cfg0.N) (h0 : ¬t.val % 1024 = 0) (h1 : t.val % 1024 = 1023) :
    (outsAt0 m c t.val t.isLt).1 = (outsAt0 m c t.val t.isLt).2 := by
  rw [outsAt0_C m c t h0 h1]
  dsimp only
  exact (out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm

/-! ## A contribution as selector-weighted answers of the arguments -/

/-- Entry (row, e) of the contribution of point 1024 q + s: over the rows of row tile s, the selector times the answer
    of that point to centre 256 q + e. -/
theorem addend_apply (c : Dev nD) (q : Fin 2) (s : Fin 1024) (row e : Fin 256) (E : Fin 512) (hE : E.val = 256 * q.val + e.val) :
    addend m c (1024 * q.val + s.val) (ix2 row e)
      = ∑ r : Fin 256, (if RowHit 256 (m ((c : Thread nD τ).loc main_arg1) (ix1 (tilePt s r))) row then (1 : EReal) else 0)
          * resp (m ((c : Thread nD τ).loc main_arg0)) (m ((c : Thread nD τ).loc main_arg2)) (m ((c : Thread nD τ).loc main_arg3))
              (tilePt s r) E := by
  have hq := q.isLt
  have hs := s.isLt
  have hN : cfg0.N = 2048 := N_0
  have hb : 1024 * q.val + s.val < cfg0.N := by omega
  unfold addend
  rw [dif_pos hb]
  refine (contrib_apply (iblk m c 0 ⟨_, hb⟩) (iblk m c 1 ⟨_, hb⟩) (iblk m c 2 ⟨_, hb⟩) (iblk m c 3 ⟨_, hb⟩) row e).trans ?_
  refine Finset.sum_congr rfl fun r _ => ?_
  have hr := r.isLt
  have hmod : (1024 * q.val + s.val) % 1024 = s.val := by omega
  have hdiv : (1024 * q.val + s.val) / 1024 = q.val := by omega
  have hP : (tilePt s r).val = 256 * ((⟨1024 * q.val + s.val, hb⟩ : Fin cfg0.N).val % 1024) + r.val := by
    show 256 * s.val + r.val = 256 * ((1024 * q.val + s.val) % 1024) + r.val
    rw [hmod]
  have hC : E.val = 256 * ((⟨1024 * q.val + s.val, hb⟩ : Fin cfg0.N).val / 1024) + e.val := by
    show E.val = 256 * ((1024 * q.val + s.val) / 1024) + e.val
    rw [hdiv, hE]
  rw [segBlk_apply m c ⟨_, hb⟩ r (tilePt s r) hP]
  unfold tileAns resp
  rw [ptsBlk_apply m c ⟨_, hb⟩ r 0 (tilePt s r) hP, ptsBlk_apply m c ⟨_, hb⟩ r 1 (tilePt s r) hP,
    cenBlk_apply m c ⟨_, hb⟩ 0 e E hC, cenBlk_apply m c ⟨_, hb⟩ 1 e E hC,
    wgtBlk_apply m c ⟨_, hb⟩ 0 e E hC, wgtBlk_apply m c ⟨_, hb⟩ 1 e E hC, sub_eq_add_neg, zero_add]

/-! ## The result array -/

/-- The block a point writes back is the output block it holds, entry by entry (the blocks are never cut short). -/
theorem cut_apply (t : Fin cfg0.N) (X : Vec Ideal S256x256 .f32) (y : S256x256.Idx) :
    (cfg0.win 4).cut (grid0.coords t) X y = X y := rfl

/-- What a column tile's last point writes back is that tile's block of the segment sums. -/
theorem flushed_eq (c : Dev nD) (t : Fin cfg0.N) (hf : (cfg0.win 4).flush t = true) :
    (dats m 0 c).flushed 4 t = ((cfg0.win 4).blk t).view.read (Elt Ideal) (result m c) := by
  have hN : cfg0.N = 2048 := N_0
  have ht := t.isLt
  have h1 : t.val % 1024 = 1023 := (flush0_4 t).mp hf
  have h0 : ¬t.val % 1024 = 0 := by omega
  have hi := idx_out t
  rw [flushed4, out_eq_scratch m c t h0 h1]
  funext y
  obtain ⟨row, e, rfl⟩ : ∃ (row e : Fin 256), y = ix2 row e := ⟨y 0, y 1, eq_ix2 y⟩
  have he := e.isLt
  have hE : ((cfg0.win 4).blk t).view.emb (ix2 row e) = ix2 row (⟨256 * (t.val / 1024) + e.val, by omega⟩ : Fin 512) := by
    funext a
    apply Fin.ext
    match a with
    | ⟨0, _⟩ => show win0_4.index t 0 * 256 + 1 * row.val = row.val; rw [hi.1]; omega
    | ⟨1, _⟩ => show win0_4.index t 1 * 256 + 1 * e.val = 256 * (t.val / 1024) + e.val; rw [hi.2]; omega
  rw [cut_apply, View.read_apply, hE, scratch_eq, h1, zero_add,
    Finset.sum_range (fun s => addend m c (1024 * (t.val / 1024) + s) (ix2 row e))]
  rw [result_apply, ← segSum_tiles]
  refine Finset.sum_congr rfl fun s _ => ?_
  exact addend_apply m c ⟨t.val / 1024, by omega⟩ s row e _ rfl

/-- Every entry of the result is in the block some column tile's last point writes back. -/
theorem cover (i : S256x512.Idx) : ∃ t : Fin cfg0.N, (cfg0.win 4).flush t = true ∧ i ∈ ((cfg0.win 4).blk t).view.set := by
  have hN : cfg0.N = 2048 := N_0
  have h0 : (i 0).val < 256 := (i 0).isLt
  have h1 : (i 1).val < 512 := (i 1).isLt
  obtain ⟨t, ht⟩ : ∃ t : Fin cfg0.N, t.val = 1024 * ((i 1).val / 256) + 1023 := ⟨⟨_, by omega⟩, rfl⟩
  have hi := idx_out t
  refine ⟨t, (flush0_4 t).mpr (by omega), ?_⟩
  show i ∈ ((View.whole main_v6).slice (win0_4.rect t)).set
  rw [View.set_slice_whole, Rect.mem_set_unit]
  intro a
  match a with
  | ⟨0, _⟩ =>
    show win0_4.index t 0 * 256 ≤ (i 0).val ∧ (i 0).val < win0_4.index t 0 * 256 + 256
    rw [hi.1]; omega
  | ⟨1, _⟩ =>
    show win0_4.index t 1 * 256 ≤ (i 1).val ∧ (i 1).val < win0_4.index t 1 * 256 + 256
    rw [hi.2]; omega

/-- After the run the result array holds the segment sums. -/
theorem final (c : Dev nD) : (dats m 0 c).arrAt 4 cfg0.N = result m c :=
  (dats m 0 c).arrAt_eq_of_cover 4 (result m c) (flushed_eq m c) cover

/-- The kernel's run: the result array at the segment sums of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.SegValue

end
-- ==== Proof.RefValue.lean ====
/-
  The reference computes the segment sums.

  Its last operation is an accumulating scatter of the 262144 rows of answers into a zero table of 256 rows, one index
  per row: entry (s, e) is zero plus the answers to centre e of the rows whose index names row s. The answers are the
  exponential of minus (zero plus the first coordinate's term plus the second's), each term a weight times a squared
  difference, the weights the softplus of the table of logarithms plus the small constant, read through slices,
  reshapes and broadcasts that only move coordinates.
-/
import proofs.«402350_j20486994002573_3_alg».proof.Proof.Gen.ReferenceIdeal.Read
import proofs.«402350_j20486994002573_3_alg».proof.Proof.Spec
import Idealize.ShloMosaic.PureOps.Ideal.Laws

noncomputable section

open scoped BigOperators

namespace Cert.ReferenceIdeal.SegValue

open Cert.ReferenceIdeal Cert.ReferenceIdeal.Read Idealize.ShloMosaic Idealize.ShloMosaic.ValueIdx Cert.LibRows Cert.SegResp

/-- The weight table at (e, d): the softplus of the logarithm there plus the small constant. -/
theorem weight_at (x3 : FVec Ideal S512x2 .f32) (j : S512x2.Idx) :
    val_main_v2 (F := Ideal) x3 j = weight1 (x3 j) := by
  rw [val_main_v2_apply, val_main_v0_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_v1_apply, val_main_cst_apply, val_main_call0_cst_apply]
  rfl

/-- Row q of the answers at column e. -/
theorem answers_at (x0 : FVec Ideal S262144x2 .f32) (x2 x3 : FVec Ideal S512x2 .f32) (q : Fin 262144) (e : Fin 512) :
    val_main_v37 (F := Ideal) x0 x2 x3 (ix2 q e) = resp x0 x2 x3 q e := by
  have p0 : idx_main_v6 (idx_main_v7 (idx_main_v8 (idx_main_v12 (ix2 q e)))) = ix2 q 0 :=
    funext fun a => Fin.ext (by match a with | ⟨0, _⟩ => exact Nat.div_one _ | ⟨1, _⟩ => rfl)
  have p1 : idx_main_v23 (idx_main_v24 (idx_main_v25 (idx_main_v29 (ix2 q e)))) = ix2 q 1 :=
    funext fun a => Fin.ext (by match a with | ⟨0, _⟩ => exact Nat.div_one _ | ⟨1, _⟩ => rfl)
  have c0 : idx_main_v9 (idx_main_v10 (idx_main_v11 (idx_main_v13 (ix2 q e)))) = ix2 e 0 :=
    funext fun a => Fin.ext (by match a with | ⟨0, _⟩ => exact Nat.div_one _ | ⟨1, _⟩ => rfl)
  have c1 : idx_main_v26 (idx_main_v27 (idx_main_v28 (idx_main_v30 (ix2 q e)))) = ix2 e 1 :=
    funext fun a => Fin.ext (by match a with | ⟨0, _⟩ => exact Nat.div_one _ | ⟨1, _⟩ => rfl)
  have w0 : idx_main_v3 (idx_main_v4 (idx_main_v5 (idx_main_v16 (ix2 q e)))) = ix2 e 0 :=
    funext fun a => Fin.ext (by match a with | ⟨0, _⟩ => exact Nat.div_one _ | ⟨1, _⟩ => rfl)
  have w1 : idx_main_v20 (idx_main_v21 (idx_main_v22 (idx_main_v33 (ix2 q e)))) = ix2 e 1 :=
    funext fun a => Fin.ext (by match a with | ⟨0, _⟩ => exact Nat.div_one _ | ⟨1, _⟩ => rfl)
  rw [val_main_v37_apply, val_main_v36_apply, val_main_v35_apply, val_main_v19_apply, val_main_v34_apply,
    val_main_v17_apply, val_main_v18_apply, val_main_cst_0_apply, val_main_v15_apply, val_main_v14_apply,
    val_main_v32_apply, val_main_v31_apply, val_main_v12_apply, val_main_v8_apply, val_main_v7_apply, val_main_v6_apply,
    val_main_v13_apply, val_main_v11_apply, val_main_v10_apply, val_main_v9_apply, val_main_v29_apply, val_main_v25_apply,
    val_main_v24_apply, val_main_v23_apply, val_main_v30_apply, val_main_v28_apply, val_main_v27_apply, val_main_v26_apply,
    val_main_v16_apply, val_main_v5_apply, val_main_v4_apply, val_main_v3_apply, val_main_v33_apply, val_main_v22_apply,
    val_main_v21_apply, val_main_v20_apply, p0, p1, c0, c1, w0, w1, weight_at, weight_at]
  unfold resp
  simp only [Ideal.hostUnary_exp_def, Ideal.hostNegf_def, Ideal.negf_def, Ideal.addf_def, Ideal.mulf_def, Ideal.subf_def,
    Ideal.ofBits_def, Ideal.ofBits_zero_f32, zero_add]

/-- The reference's result is the segment sums of its arguments. -/
theorem result_eq (x0 : FVec Ideal S262144x2 .f32) (x1 : IVec S262144 32) (x2 x3 : FVec Ideal S512x2 .f32) :
    val_main_v40 (F := Ideal) x0 x1 x2 x3 = segSums x0 x1 x2 x3 := by
  funext i
  obtain ⟨s, e, rfl⟩ : ∃ (s : Fin 256) (e : Fin 512), i = ix2 s e := ⟨i 0, i 1, eq_ix2 i⟩
  unfold val_main_v40
  have hd : scatter_S256x512_S262144x1_S262144x512_1_0_0_1
      = rowsScatter 256 262144 512 Facts₀.scatter_S256x512_S262144x1_S262144x512_1_0_0_1_wf := rfl
  rw [hd, scatterAdd_rows_apply, val_main_v38_apply, val_main_cst_1_apply]
  show Ideal.ofBits .f32 0x00000000#32 + _ = segSum x0 x1 x2 x3 s e
  rw [Ideal.ofBits_zero_f32, zero_add]
  unfold segSum
  have hq : ∀ q : Fin 262144, val_main_v39 (F := Ideal) x1 (ix2 q 0) = x1 (ix1 q) := fun q => by
    rw [val_main_v39_apply]
    exact congrArg x1 (funext fun a => Fin.ext (by match a with | ⟨0, _⟩ => rfl))
  simp only [hq]
  exact Finset.sum_congr rfl fun q _ => answers_at x0 x2 x3 q e

end Cert.ReferenceIdeal.SegValue

end
-- ==== Proof.lean ====
/-
  Segment sums of exponential responses, by a tiled one-hot product and by an accumulating scatter.

  Both programs take 262144 points in the plane, a segment id per point, 512 centres and a 512 x 2 table of logarithms.
  The weight w(e, d) is the softplus of the logarithm at (e, d) plus a small constant, the answer of point n to centre e
  is exp(-(w(e,0) (p(n,0) - c(e,0))^2 + w(e,1) (p(n,1) - c(e,1))^2)), and entry (s, e) of the 256 x 512 result is the sum
  of the answers to centre e of the points whose id is s (an id outside 0 .. 255 contributes nowhere).

  The reference scatters the rows of answers into a zero table, adding. The kernel walks a 2 x 1024 grid: for each of two
  column tiles of 256 centres it zeroes an accumulator, and for each of 1024 row tiles of 256 points adds the product of
  the transposed 0/1 selector (id equals row number) with the tile's answers; after the last row tile the accumulator is
  the tile's block of the result. Over the extended reals 0 * x = 0, 1 * x = x and sums regroup freely, so the two agree on
  every input, with no appeal to finiteness; a change of float format is the identity there and the selector's entries
  are exactly 0 and 1.

  The modules: Spec (the function, the selector word, the regrouping law), LibRows (a row scatter-add read at an entry),
  RefValue (the reference is the function), KernelPieces (what a grid point leaves in the accumulator and the output
  block), KernelBody (a point's contribution entry by entry), KernelBlocks (a point's blocks as entries of the
  arguments; the weight table the host prepares), KernelValue (the accumulator as a running sum, the result array).
  Both kernels' termination and the unchanged arguments are the generated frames; the reference's are its generated run.
-/
import proofs.«402350_j20486994002573_3_alg».proof.Defs
import proofs.«402350_j20486994002573_3_alg».proof.Proof.Gen.Kernel
import proofs.«402350_j20486994002573_3_alg».proof.Proof.Gen.Kernel.Skeleton
import proofs.«402350_j20486994002573_3_alg».proof.Proof.Gen.Kernel.Launch
import proofs.«402350_j20486994002573_3_alg».proof.Proof.Gen.Kernel.Points
import proofs.«402350_j20486994002573_3_alg».proof.Proof.Gen.Kernel.Frame
import proofs.«402350_j20486994002573_3_alg».proof.Proof.Gen.KernelIdeal
import proofs.«402350_j20486994002573_3_alg».proof.Proof.Gen.KernelIdeal.Skeleton
import proofs.«402350_j20486994002573_3_alg».proof.Proof.Gen.KernelIdeal.Launch
import proofs.«402350_j20486994002573_3_alg».proof.Proof.Gen.KernelIdeal.Points
import proofs.«402350_j20486994002573_3_alg».proof.Proof.Gen.KernelIdeal.Frame
import proofs.«402350_j20486994002573_3_alg».proof.Proof.Gen.ReferenceIdeal
import proofs.«402350_j20486994002573_3_alg».proof.Proof.Gen.Pre_finite_inputs
import proofs.«402350_j20486994002573_3_alg».proof.Proof.Gen.KernelIdeal.Value
import proofs.«402350_j20486994002573_3_alg».proof.Proof.Gen.ReferenceIdeal.Run
import proofs.«402350_j20486994002573_3_alg».proof.Proof.Gen.ReferenceIdeal.Read
import proofs.«402350_j20486994002573_3_alg».proof.Proof.KernelValue
import proofs.«402350_j20486994002573_3_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its arguments as they were: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the segment sums of arguments that agree. -/
theorem algebraic : Cert.algebraic_KernelIdeal_ReferenceIdeal := by
  intro m ρ m' ρ' _ hagree
  refine ⟨fun c => Cert.KernelIdeal.SegValue.result m c, Cert.KernelIdeal.SegValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.SegValue.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
